-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S128x64 .f32) (main_arg11 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x64 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x64 .f32) (main_arg10 : FVec F S128x64 .f32) (main_arg11 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S2000x128 : Shape := ⟨2, ![2000, 128]⟩
abbrev S1x64 : Shape := ⟨2, ![1, 64]⟩
abbrev S100000x64 : Shape := ⟨2, ![100000, 64]⟩
abbrev S2000x64 : Shape := ⟨2, ![2000, 64]⟩

abbrev nBuf : Space → Nat
  | .hbm => 76
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S1x64, .f32⟩
  | .hbm, ⟨75, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x64, .f32⟩
  | .local _ .vmem, ⟨23, _⟩ => ⟨S128x64, .f32⟩
  | .local _ .vmem, ⟨24, _⟩ => ⟨S1x64, .f32⟩
  | .local _ .vmem, ⟨25, _⟩ => ⟨S2000x64, .f32⟩
  | .local _ .vmem, ⟨26, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_c_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S100000x64.size a
  hwx2_5 : ∀ i : grid2.Coords, EltTy.bits .f32 = 32 ∨ (Rect.block (s := S100000x64) S2000x64.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v36) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 94
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x128, .f32⟩
  | .hbm, ⟨82, _⟩ => ⟨S_, .f32⟩
  | .hbm, ⟨83, _⟩ => ⟨S100000x128, .f32⟩
  | .hbm, ⟨84, _⟩ => ⟨S1600000x1, .i32⟩
  | .hbm, ⟨85, _⟩ => ⟨S100000x128, .f32⟩
  | .hbm, ⟨86, _⟩ => ⟨S100000x128, .f32⟩
  | .hbm, ⟨87, _⟩ => ⟨S100000x128, .f32⟩
  | .hbm, ⟨88, _⟩ => ⟨S100000x64, .f32⟩
  | .hbm, ⟨89, _⟩ => ⟨S100000x64, .f32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_cst : Ref sig .tc := ⟨.hbm, 46, rfl⟩
abbrev main_call0_v0 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_call1_cst : Ref sig .tc := ⟨.hbm, 70, rfl⟩
abbrev main_call1_v0 : Ref sig .tc := ⟨.hbm, 71, rfl⟩
abbrev main_v46 : Ref sig .tc := ⟨.hbm, 72, rfl⟩
abbrev main_c_8 : Ref sig .tc := ⟨.hbm, 73, rfl⟩
abbrev main_v47 : Ref sig .tc := ⟨.hbm, 74, rfl⟩
abbrev main_v48 : Ref sig .tc := ⟨.hbm, 75, rfl⟩
abbrev main_c_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.Dense.lean ====
import Idealize.ShloMosaic.PureOps.Ideal.Laws
import Idealize.ShloMosaic.Lib.ValueIdx
import Idealize.ShloMosaic.Lib.ValueLayout
import Idealize.ShloMosaic.Lib.Pipeline.Value
import proofs.«115598_j74792560492685_1_alg».proof.Proof.LibPlainDot

noncomputable section

open scoped BigOperators

/-! # One dense stage of the network, as a function of whole arrays

A layer maps node features `x` and aggregated neighbour features `a` (both `M × K`) to
`x · Ws + a · Wn + b` (`M × N`), the bias `b` added to every row, and the hidden layers clamp the result
below at zero. Entry `(r, c)` is `(∑ k, x (r, k) · Ws (k, c) + ∑ k, a (r, k) · Wn (k, c)) + b c` on the extended
reals, the two additions associated as both programs associate them, so no law of the extended reals beyond
reading each operation at an entry is needed. -/

namespace Cert.Sage

open Idealize.ShloMosaic Idealize.ShloMosaic.ValueIdx

variable {M K N : ℕ}

/-- The affine stage at an entry. -/
def dense (x a : FVec Ideal ⟨2, ![M, K]⟩ .f32) (ws wn : FVec Ideal ⟨2, ![K, N]⟩ .f32) (b : FVec Ideal ⟨1, ![N]⟩ .f32) :
    FVec Ideal ⟨2, ![M, N]⟩ .f32 :=
  fun i => (∑ k : Fin K, x (ix2 (i 0) k) * ws (ix2 k (i 1)) + ∑ k : Fin K, a (ix2 (i 0) k) * wn (ix2 k (i 1))) + b (ix1 (i 1))

/-- The affine stage clamped below at the zero word's value. -/
def denseRelu (x a : FVec Ideal ⟨2, ![M, K]⟩ .f32) (ws wn : FVec Ideal ⟨2, ![K, N]⟩ .f32) (b : FVec Ideal ⟨1, ![N]⟩ .f32) :
    FVec Ideal ⟨2, ![M, N]⟩ .f32 :=
  fun i => max (dense x a ws wn b i) (Ideal.ofBits .f32 0x00000000#32)

/-- The kernel body's arithmetic at an entry of its block: two matrix-unit products into zero accumulators of the
    operands narrowed to bf16 (the identity on extended reals), their sum, and the one-row bias broadcast down the rows. -/
theorem body_apply (d : DotDims ⟨2, ![M, K]⟩ ⟨2, ![K, N]⟩ ⟨2, ![M, N]⟩) (hd : d = DotDims.plain M K N)
    (x a : FVec Ideal ⟨2, ![M, K]⟩ .f32) (ws wn : FVec Ideal ⟨2, ![K, N]⟩ .f32) (b : FVec Ideal ⟨2, ![1, N]⟩ .f32)
    (hb : FTy.bf16.bits < FTy.f32.bits) (hbr : (⟨2, ![1, N]⟩ : Shape).Broadcasts ⟨2, ![M, N]⟩) (j : (⟨2, ![M, N]⟩ : Shape).Idx) :
    addf (addf (matmul d none (truncf .bf16 x hb) (truncf .bf16 ws hb) (constant ⟨2, ![M, N]⟩ .f32 0x00000000#32))
        (matmul d none (truncf .bf16 a hb) (truncf .bf16 wn hb) (constant ⟨2, ![M, N]⟩ .f32 0x00000000#32)))
      (broadcastTo ⟨2, ![M, N]⟩ b hbr) j
      = dense x a ws wn (fun q => b (ix2 (0 : Fin 1) (q 0))) j := by
  obtain ⟨p, q, rfl⟩ : ∃ (p : Fin M) (q : Fin N), j = ix2 p q := ⟨j 0, j 1, eq_ix2 j⟩
  rw [addf_apply, addf_apply]
  show (FloatOps.matmul d none (truncf .bf16 x hb) (truncf .bf16 ws hb) (constant ⟨2, ![M, N]⟩ .f32 0x00000000#32) (ix2 p q)
      + FloatOps.matmul d none (truncf .bf16 a hb) (truncf .bf16 wn hb) (constant ⟨2, ![M, N]⟩ .f32 0x00000000#32) (ix2 p q))
      + broadcastTo ⟨2, ![M, N]⟩ b hbr (ix2 p q) = _
  rw [Cert.PlainDot.matmul_zero_apply d hd, Cert.PlainDot.matmul_zero_apply d hd, broadcastTo_1b_ab_apply]
  rfl

/-- The reference's operations at an entry: two host products, their sum, and the bias spread first over a unit row
    axis and then over the rows. -/
theorem ref_apply (d : DotDims ⟨2, ![M, K]⟩ ⟨2, ![K, N]⟩ ⟨2, ![M, N]⟩) (hd : d = DotDims.plain M K N)
    (x a : FVec Ideal ⟨2, ![M, K]⟩ .f32) (ws wn : FVec Ideal ⟨2, ![K, N]⟩ .f32) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1])
    (j : (⟨2, ![M, N]⟩ : Shape).Idx) :
    addf (addf (Host.dotGeneral d none x ws) (Host.dotGeneral d none a wn))
      (broadcastInDim ⟨2, ![M, N]⟩ ![0, 1] h2 (broadcastInDim ⟨2, ![1, N]⟩ ![1] h1 b)) j
      = dense x a ws wn b j := by
  obtain ⟨p, q, rfl⟩ : ∃ (p : Fin M) (q : Fin N), j = ix2 p q := ⟨j 0, j 1, eq_ix2 j⟩
  have hq := q.isLt
  rw [addf_apply, addf_apply]
  simp only [Host.dotGeneral]
  rw [Cert.PlainDot.dotGeneral_apply d hd, Cert.PlainDot.dotGeneral_apply d hd]
  have e2 : broadcastInDim ⟨2, ![M, N]⟩ ![0, 1] h2 (broadcastInDim ⟨2, ![1, N]⟩ ![1] h1 b) (ix2 p q)
      = broadcastInDim ⟨2, ![1, N]⟩ ![1] h1 b (ix2 (0 : Fin 1) q) :=
    broadcastInDim_apply _ h2 _ (ix2 p q) (ix2 (0 : Fin 1) q) fun ax => by
      match ax with
      | ⟨0, _⟩ => show 0 = if (1 : Nat) = 1 then 0 else p.val; rw [if_pos rfl]
      | ⟨1, _⟩ => show q.val = if N = 1 then 0 else q.val; split <;> omega
  have e1 : broadcastInDim ⟨2, ![1, N]⟩ ![1] h1 b (ix2 (0 : Fin 1) q) = b (ix1 q) :=
    broadcastInDim_apply _ h1 b (ix2 (0 : Fin 1) q) (ix1 q) fun ax => by
      match ax with
      | ⟨0, _⟩ => show q.val = if N = 1 then 0 else q.val; split <;> omega
  rw [e2, e1]
  rfl

end Cert.Sage

end
-- ==== Proof.Glue.lean ====
import proofs.«115598_j74792560492685_1_alg».proof.Proof.Gen.KernelIdeal
import proofs.«115598_j74792560492685_1_alg».proof.Proof.Dense

noncomputable section

/-! # The aggregation between the dense stages, and the network

Between two dense stages both programs run the same host operations: gather the rows of the current features at the
edges' sources (an index below zero wrapped by the node count), add them up at the edges' destinations, and scale row
`r` by `1 / max(deg r, 1)`, `deg` the number of edges arriving at `r`. They are carried as two named functions that
are never opened: the two programs agree on them operation by operation. -/

namespace Cert.Sage

open Cert.KernelIdeal Cert.KernelIdeal.Facts₀ Idealize.ShloMosaic

section Chain

variable {F : FTy → Type} [FloatOps F]

/-- `1 / max(deg, 1)` as a column, `deg` the scatter-add of ones at the destinations. -/
def invDeg (dst : (⟨S1600000, .i32⟩ : BufTy).Contents (Elt F)) : (⟨S100000x1, .f32⟩ : BufTy).Contents (Elt F) :=
  broadcastInDim S100000x1 ![0] bcast_S100000_S100000x1_0 (Host.divf (F := F) (broadcastInDim S100000 ![] bcast_S_S100000 (constant (F := F) S_ .f32 0x3F800000#32)) (maximumf (F := F) (Host.scatterAdd (F := F) scatter_S100000_S1600000x1_S1600000_n_0_0_1 (broadcastInDim S100000 ![] bcast_S_S100000 (constant (F := F) S_ .f32 0x00000000#32)) (broadcastInDim S1600000x1 ![0] bcast_S1600000_S1600000x1_0 dst) (broadcastInDim S1600000 ![] bcast_S_S1600000 (constant (F := F) S_ .f32 0x3F800000#32))) (broadcastInDim S100000 ![] bcast_S_S100000 (constant (F := F) S_ .f32 0x3F800000#32))))

/-- Gather the rows at the sources, add them up at the destinations, scale row `r` by entry `r` of a given column. -/
def scaledAgg (h : (⟨S100000x128, .f32⟩ : BufTy).Contents (Elt F)) (src dst : (⟨S1600000, .i32⟩ : BufTy).Contents (Elt F)) (inv : (⟨S100000x1, .f32⟩ : BufTy).Contents (Elt F)) : (⟨S100000x128, .f32⟩ : BufTy).Contents (Elt F) :=
  mulf (F := F) (Host.scatterAdd (F := F) scatter_S100000x128_S1600000x1_S1600000x128_1_0_0_1 (broadcastInDim S100000x128 ![] bcast_S_S100000x128 (constant (F := F) S_ .f32 0x00000000#32)) (broadcastInDim S1600000x1 ![0] bcast_S1600000_S1600000x1_0 dst) (Host.gather gather_S100000x128_S1600000x1_S1600000x128_1_0_n_n_0_1_1128 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x128 ![0, 1] bcast_S100000x1_S100000x128_0_1 inv)

/-- The mean of the neighbours' rows: the scaled aggregation with the column `invDeg` of the same destinations. -/
def meanAgg (h : (⟨S100000x128, .f32⟩ : BufTy).Contents (Elt F)) (src dst : (⟨S1600000, .i32⟩ : BufTy).Contents (Elt F)) : (⟨S100000x128, .f32⟩ : BufTy).Contents (Elt F) :=
  scaledAgg h src dst (invDeg dst)

end Chain

/-- The three layers at the extended reals: two clamped dense stages and a plain one, each fed the features and their
    neighbourhood means. -/
def net (x : FVec Ideal S100000x128 .f32) (src dst : (⟨S1600000, .i32⟩ : BufTy).Contents (Elt Ideal))
    (ws0 wn0 : FVec Ideal S128x128 .f32) (b0 : FVec Ideal S128 .f32) (ws1 wn1 : FVec Ideal S128x128 .f32) (b1 : FVec Ideal S128 .f32)
    (ws2 wn2 : FVec Ideal S128x64 .f32) (b2 : FVec Ideal S64 .f32) : FVec Ideal S100000x64 .f32 :=
  let h1 : FVec Ideal S100000x128 .f32 := denseRelu x (meanAgg (F := Ideal) x src dst) ws0 wn0 b0
  let h2 : FVec Ideal S100000x128 .f32 := denseRelu h1 (meanAgg (F := Ideal) h1 src dst) ws1 wn1 b1
  dense h2 (meanAgg (F := Ideal) h2 src dst) ws2 wn2 b2

end Cert.Sage

end
-- ==== Proof.Stretch0.lean ====
/- The host operations before region 0, read: what the first region's operands hold when it is entered.

   The stretch computes the in-degree column `1 / max(deg, 1)` from the destinations, the means of the input features
   over each node's incoming edges, and the first bias as a one-row matrix; it writes no argument. Each buffer is
   read off the fold of the stretch over the launch memory. -/
import proofs.«115598_j74792560492685_1_alg».proof.Proof.KernelIdealFrame
import proofs.«115598_j74792560492685_1_alg».proof.Proof.Glue
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Val

open Cert.KernelIdeal Cert.KernelIdeal.Facts₀ Cert.KernelIdeal.Gen Cert.KernelIdeal.GenP

variable {F : FTy → Type} [FloatOps F]
variable (m : (ℓ : Loc nD τ sig) → Buf (Elt F) ℓ) (ρ : Dev nD → PrngReg)

/-- A stretch of host operations leaves a buffer none of them writes as it was: every operation's written buffer is
    compared with the one asked for. -/
local macro "host_keeps" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## The arguments the stretch does not touch -/

theorem W1_arg0 (c : Dev nD) : W1 m ρ c (Proc.devRef .tc main_arg0) = m ((c : Thread nD τ).loc main_arg0) := by
  show StableHlo.after hostOps0 (W0 m ρ c) (Proc.devRef .tc main_arg0) = W0 m ρ c (Proc.devRef .tc main_arg0)
  host_keeps hostOps0
theorem W1_arg1 (c : Dev nD) : W1 m ρ c (Proc.devRef .tc main_arg1) = m ((c : Thread nD τ).loc main_arg1) := by
  show StableHlo.after hostOps0 (W0 m ρ c) (Proc.devRef .tc main_arg1) = W0 m ρ c (Proc.devRef .tc main_arg1)
  host_keeps hostOps0
theorem W1_arg2 (c : Dev nD) : W1 m ρ c (Proc.devRef .tc main_arg2) = m ((c : Thread nD τ).loc main_arg2) := by
  show StableHlo.after hostOps0 (W0 m ρ c) (Proc.devRef .tc main_arg2) = W0 m ρ c (Proc.devRef .tc main_arg2)
  host_keeps hostOps0
theorem W1_arg3 (c : Dev nD) : W1 m ρ c (Proc.devRef .tc main_arg3) = m ((c : Thread nD τ).loc main_arg3) := by
  show StableHlo.after hostOps0 (W0 m ρ c) (Proc.devRef .tc main_arg3) = W0 m ρ c (Proc.devRef .tc main_arg3)
  host_keeps hostOps0
theorem W1_arg4 (c : Dev nD) : W1 m ρ c (Proc.devRef .tc main_arg4) = m ((c : Thread nD τ).loc main_arg4) := by
  show StableHlo.after hostOps0 (W0 m ρ c) (Proc.devRef .tc main_arg4) = W0 m ρ c (Proc.devRef .tc main_arg4)
  host_keeps hostOps0
theorem W1_arg6 (c : Dev nD) : W1 m ρ c (Proc.devRef .tc main_arg6) = m ((c : Thread nD τ).loc main_arg6) := by
  show StableHlo.after hostOps0 (W0 m ρ c) (Proc.devRef .tc main_arg6) = W0 m ρ c (Proc.devRef .tc main_arg6)
  host_keeps hostOps0
theorem W1_arg7 (c : Dev nD) : W1 m ρ c (Proc.devRef .tc main_arg7) = m ((c : Thread nD τ).loc main_arg7) := by
  show StableHlo.after hostOps0 (W0 m ρ c) (Proc.devRef .tc main_arg7) = W0 m ρ c (Proc.devRef .tc main_arg7)
  host_keeps hostOps0
theorem W1_arg8 (c : Dev nD) : W1 m ρ c (Proc.devRef .tc main_arg8) = m ((c : Thread nD τ).loc main_arg8) := by
  show StableHlo.after hostOps0 (W0 m ρ c) (Proc.devRef .tc main_arg8) = W0 m ρ c (Proc.devRef .tc main_arg8)
  host_keeps hostOps0
theorem W1_arg9 (c : Dev nD) : W1 m ρ c (Proc.devRef .tc main_arg9) = m ((c : Thread nD τ).loc main_arg9) := by
  show StableHlo.after hostOps0 (W0 m ρ c) (Proc.devRef .tc main_arg9) = W0 m ρ c (Proc.devRef .tc main_arg9)
  host_keeps hostOps0
theorem W1_arg10 (c : Dev nD) : W1 m ρ c (Proc.devRef .tc main_arg10) = m ((c : Thread nD τ).loc main_arg10) := by
  show StableHlo.after hostOps0 (W0 m ρ c) (Proc.devRef .tc main_arg10) = W0 m ρ c (Proc.devRef .tc main_arg10)
  host_keeps hostOps0
theorem W1_arg11 (c : Dev nD) : W1 m ρ c (Proc.devRef .tc main_arg11) = m ((c : Thread nD τ).loc main_arg11) := by
  show StableHlo.after hostOps0 (W0 m ρ c) (Proc.devRef .tc main_arg11) = W0 m ρ c (Proc.devRef .tc main_arg11)
  host_keeps hostOps0

/-! ## What the stretch computes -/

set_option maxHeartbeats 4000000 in
/-- The column `1 / max(deg, 1)` of the destinations. -/
theorem W1_v8 (c : Dev nD) : W1 m ρ c (Proc.devRef .tc main_v8) = Sage.invDeg (F := F) (m ((c : Thread nD τ).loc main_arg2)) := by
  show StableHlo.after hostOps0 (W0 m ρ c) (Proc.devRef .tc main_v8) = _
  after_results
  rfl

set_option maxHeartbeats 4000000 in
/-- The means of the input features over the incoming edges. -/
theorem W1_v20 (c : Dev nD) : W1 m ρ c (Proc.devRef .tc main_v20)
    = Sage.meanAgg (F := F) (m ((c : Thread nD τ).loc main_arg0)) (m ((c : Thread nD τ).loc main_arg1)) (m ((c : Thread nD τ).loc main_arg2)) := by
  show StableHlo.after hostOps0 (W0 m ρ c) (Proc.devRef .tc main_v20) = _
  after_results
  rfl

set_option maxHeartbeats 4000000 in
/-- The first bias laid out as one row. -/
theorem W1_v21 (c : Dev nD) : W1 m ρ c (Proc.devRef .tc main_v21)
    = shapeCast S1x128 (m ((c : Thread nD τ).loc main_arg5)) Facts₀.shapeCasts_S128_S1x128 := by
  show StableHlo.after hostOps0 (W0 m ρ c) (Proc.devRef .tc main_v21) = _
  after_results
  rfl

end Cert.KernelIdeal.Val

end
-- ==== Proof.Stretch1.lean ====
/- The host operations between region 0 and region 1, read off their fold over the contents region 0 left (`W2`):
   they gather the hidden features just written at the edges' sources, add them up at the destinations, scale by the
   in-degree column computed before region 0, and lay the layer's bias out as one row. They write none of the buffers
   later stages read from before. -/
import proofs.«115598_j74792560492685_1_alg».proof.Proof.KernelIdealFrame
import proofs.«115598_j74792560492685_1_alg».proof.Proof.Glue
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Val

open Cert.KernelIdeal Cert.KernelIdeal.Facts₀ Cert.KernelIdeal.Gen Cert.KernelIdeal.GenP

variable {F : FTy → Type} [FloatOps F]
variable (m : (ℓ : Loc nD τ sig) → Buf (Elt F) ℓ) (ρ : Dev nD → PrngReg)

/-- A stretch of host operations leaves a buffer none of them writes as it was: every operation's written buffer is
    compared with the one asked for. -/
local macro "host_keeps" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## Buffers the stretch does not touch -/

theorem W3_v22 (c : Dev nD) : W3 m ρ c (Proc.devRef .tc main_v22) = W2 m ρ c (Proc.devRef .tc main_v22) := by
  show StableHlo.after hostOps1 (W2 m ρ c) (Proc.devRef .tc main_v22) = W2 m ρ c (Proc.devRef .tc main_v22)
  host_keeps hostOps1
theorem W3_arg6 (c : Dev nD) : W3 m ρ c (Proc.devRef .tc main_arg6) = W2 m ρ c (Proc.devRef .tc main_arg6) := by
  show StableHlo.after hostOps1 (W2 m ρ c) (Proc.devRef .tc main_arg6) = W2 m ρ c (Proc.devRef .tc main_arg6)
  host_keeps hostOps1
theorem W3_arg7 (c : Dev nD) : W3 m ρ c (Proc.devRef .tc main_arg7) = W2 m ρ c (Proc.devRef .tc main_arg7) := by
  show StableHlo.after hostOps1 (W2 m ρ c) (Proc.devRef .tc main_arg7) = W2 m ρ c (Proc.devRef .tc main_arg7)
  host_keeps hostOps1
theorem W3_arg1 (c : Dev nD) : W3 m ρ c (Proc.devRef .tc main_arg1) = W2 m ρ c (Proc.devRef .tc main_arg1) := by
  show StableHlo.after hostOps1 (W2 m ρ c) (Proc.devRef .tc main_arg1) = W2 m ρ c (Proc.devRef .tc main_arg1)
  host_keeps hostOps1
theorem W3_arg2 (c : Dev nD) : W3 m ρ c (Proc.devRef .tc main_arg2) = W2 m ρ c (Proc.devRef .tc main_arg2) := by
  show StableHlo.after hostOps1 (W2 m ρ c) (Proc.devRef .tc main_arg2) = W2 m ρ c (Proc.devRef .tc main_arg2)
  host_keeps hostOps1
theorem W3_v8 (c : Dev nD) : W3 m ρ c (Proc.devRef .tc main_v8) = W2 m ρ c (Proc.devRef .tc main_v8) := by
  show StableHlo.after hostOps1 (W2 m ρ c) (Proc.devRef .tc main_v8) = W2 m ρ c (Proc.devRef .tc main_v8)
  host_keeps hostOps1
theorem W3_arg9 (c : Dev nD) : W3 m ρ c (Proc.devRef .tc main_arg9) = W2 m ρ c (Proc.devRef .tc main_arg9) := by
  show StableHlo.after hostOps1 (W2 m ρ c) (Proc.devRef .tc main_arg9) = W2 m ρ c (Proc.devRef .tc main_arg9)
  host_keeps hostOps1
theorem W3_arg10 (c : Dev nD) : W3 m ρ c (Proc.devRef .tc main_arg10) = W2 m ρ c (Proc.devRef .tc main_arg10) := by
  show StableHlo.after hostOps1 (W2 m ρ c) (Proc.devRef .tc main_arg10) = W2 m ρ c (Proc.devRef .tc main_arg10)
  host_keeps hostOps1
theorem W3_arg11 (c : Dev nD) : W3 m ρ c (Proc.devRef .tc main_arg11) = W2 m ρ c (Proc.devRef .tc main_arg11) := by
  show StableHlo.after hostOps1 (W2 m ρ c) (Proc.devRef .tc main_arg11) = W2 m ρ c (Proc.devRef .tc main_arg11)
  host_keeps hostOps1

/-! ## What the stretch computes -/

set_option maxHeartbeats 4000000 in
/-- The hidden features' sums over the incoming edges, scaled by the in-degree column. -/
theorem W3_v34 (c : Dev nD) : W3 m ρ c (Proc.devRef .tc main_v34)
    = Sage.scaledAgg (F := F) (W2 m ρ c (Proc.devRef .tc main_v22)) (W2 m ρ c (Proc.devRef .tc main_arg1))
        (W2 m ρ c (Proc.devRef .tc main_arg2)) (W2 m ρ c (Proc.devRef .tc main_v8)) := by
  show StableHlo.after hostOps1 (W2 m ρ c) (Proc.devRef .tc main_v34) = _
  after_results
  rfl

set_option maxHeartbeats 4000000 in
/-- The layer's bias laid out as one row. -/
theorem W3_v35 (c : Dev nD) : W3 m ρ c (Proc.devRef .tc main_v35)
    = shapeCast S1x128 (W2 m ρ c (Proc.devRef .tc main_arg8)) Facts₀.shapeCasts_S128_S1x128 := by
  show StableHlo.after hostOps1 (W2 m ρ c) (Proc.devRef .tc main_v35) = _
  after_results
  rfl

end Cert.KernelIdeal.Val

end
-- ==== Proof.Region0.lean ====
/- Region 0 of the idealized kernel, read as a value: the first layer's dense stage.

   The region walks 50 blocks of 2000 rows. At block `t` the body sees rows `2000 t … 2000 t + 1999` of the features
   and of their neighbourhood means, the two whole weight matrices and the one-row bias, and writes
   `max (x · Ws + a · Wn + b, 0)` to the same rows of the result. Every entry of a block of the result therefore depends
   only on its own row of the two row-blocked operands, so each block is the restriction of ONE function of the whole
   arrays (`Sage.denseRelu`), the 50 blocks cover the result array, and the array after the region is that function.
   Everything is stated at the contents `V` the region is entered with, whatever they are. -/
import proofs.«115598_j74792560492685_1_alg».proof.Proof.KernelIdealFrame
import proofs.«115598_j74792560492685_1_alg».proof.Proof.Dense
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer0

open Cert.KernelIdeal Cert.KernelIdeal.Gen Cert.KernelIdeal.GenP

variable (V : (c : Dev nD) → (b : Ref sig .tc) → Buf (Elt Ideal) ((c : Thread nD τ).loc b))

/-- The offsets of a whole-block access are all zero. -/
theorem hz : (![0, 0] : Fin 2 → Nat) = fun _ => 0 := funext fun a => by fin_cases a <;> rfl

/-- The printed index maps over the grid: the row-blocked windows (features, means, result) sit at block row `t`,
    column block 0; the weights and the bias are always block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The body's stored value at an entry of its block: the clamped dense stage of the loaded blocks, the bias read
    from its one row. -/
theorem pay_apply (x0 x1 : Vec Ideal S2000x128 .f32) (x2 x3 : Vec Ideal S128x128 .f32) (x4 : Vec Ideal S1x128 .f32) (j : S2000x128.Idx) :
    k0_pay1 (F := Ideal) x0 x1 x2 x3 x4 j = Sage.denseRelu x0 x1 x2 x3 (fun q => x4 (ix2 (0 : Fin 1) (q 0))) j := by
  unfold k0_pay1
  simp only [shapeCast_self]
  exact congrArg (fun z => max z (Ideal.ofBits .f32 0x00000000#32)) (Sage.body_apply _ rfl x0 x1 x2 x3 x4 _ _ j)

/-- The region's five operand arrays as it finds them: features, neighbourhood means, the two weight matrices, the
    bias as a one-row matrix. -/
abbrev X (c : Dev nD) : FVec Ideal S100000x128 .f32 := V c main_arg0
abbrev A (c : Dev nD) : FVec Ideal S100000x128 .f32 := V c main_v20
abbrev Ws (c : Dev nD) : FVec Ideal S128x128 .f32 := V c main_arg3
abbrev Wn (c : Dev nD) : FVec Ideal S128x128 .f32 := V c main_arg4
abbrev B (c : Dev nD) : FVec Ideal S1x128 .f32 := V c main_v21

/-- Entry `(p, k)` of the features' block at point `t` is entry `(2000 t + p, k)` of the array. -/
theorem blk_x (c : Dev nD) (t : Fin cfg0.N) (p : Fin 2000) (k : Fin 128) (r : Fin 100000) (hr : r.val = t.val * 2000 + p.val) :
    (iblk0 V c 0 t : Vec Ideal S2000x128 .f32) (ix2 p k) = X V c (ix2 r k) := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 2000 + 1 * p.val = r.val; omega
  | ⟨1, _⟩ => show win0_0.index t 1 * 128 + 1 * k.val = k.val; omega

/-- The same for the neighbourhood means. -/
theorem blk_a (c : Dev nD) (t : Fin cfg0.N) (p : Fin 2000) (k : Fin 128) (r : Fin 100000) (hr : r.val = t.val * 2000 + p.val) :
    (iblk0 V c 1 t : Vec Ideal S2000x128 .f32) (ix2 p k) = A V c (ix2 r k) := by
  obtain ⟨-, -, e0, e1, -⟩ := idx_facts t
  unfold iblk0
  rw [View.read_apply]
  show V c main_v20 _ = V c main_v20 _
  congr 1
  funext a
  apply Fin.ext
  match a with
  | ⟨0, _⟩ => show win0_1.index t 0 * 2000 + 1 * p.val = r.val; omega
  | ⟨1, _⟩ => show win0_1.index t 1 * 128 + 1 * k.val = k.val; omega

/-- The self weights' block is the whole matrix at every point. -/
theorem blk_ws (c : Dev nD) (t : Fin cfg0.N) (k : Fin 128) (q : Fin 128) :
    (iblk0 V c 2 t : Vec Ideal S128x128 .f32) (ix2 k q) = Ws V c (ix2 k q) := by
  obtain ⟨-, -, -, -, e0, e1, -⟩ := idx_facts t
  unfold iblk0
  rw [View.read_apply]
  show V c main_arg3 _ = V c main_arg3 _
  congr 1
  funext a
  apply Fin.ext
  match a with
  | ⟨0, _⟩ => show win0_2.index t 0 * 128 + 1 * k.val = k.val; omega
  | ⟨1, _⟩ => show win0_2.index t 1 * 128 + 1 * q.val = q.val; omega

/-- The neighbour weights' block is the whole matrix at every point. -/
theorem blk_wn (c : Dev nD) (t : Fin cfg0.N) (k : Fin 128) (q : Fin 128) :
    (iblk0 V c 3 t : Vec Ideal S128x128 .f32) (ix2 k q) = Wn V c (ix2 k q) := by
  obtain ⟨-, -, -, -, -, -, e0, e1, -⟩ := idx_facts t
  unfold iblk0
  rw [View.read_apply]
  show V c main_arg4 _ = V c main_arg4 _
  congr 1
  funext a
  apply Fin.ext
  match a with
  | ⟨0, _⟩ => show win0_3.index t 0 * 128 + 1 * k.val = k.val; omega
  | ⟨1, _⟩ => show win0_3.index t 1 * 128 + 1 * q.val = q.val; omega

/-- The bias' block is its whole row at every point. -/
theorem blk_b (c : Dev nD) (t : Fin cfg0.N) (u : Fin 1) (q : Fin 128) :
    (iblk0 V c 4 t : Vec Ideal S1x128 .f32) (ix2 u q) = B V c (ix2 u q) := by
  obtain ⟨-, -, -, -, -, -, -, -, e0, e1, -⟩ := idx_facts t
  unfold iblk0
  rw [View.read_apply]
  show V c main_v21 _ = V c main_v21 _
  congr 1
  funext a
  apply Fin.ext
  match a with
  | ⟨0, _⟩ => show win0_4.index t 0 * 1 + 1 * u.val = u.val; omega
  | ⟨1, _⟩ => show win0_4.index t 1 * 128 + 1 * q.val = q.val; omega

/-- What point `t` writes back is block `t` of the clamped dense stage of the whole operand arrays: entry `(p, q)` of
    the block is entry `(2000 t + p, q)` of the array, whose row of features and of means is the block's row `p`. -/
theorem flushed (c : Dev nD) (t : Fin cfg0.N) :
    (dat0 V c).flushed 5 t = ((cfg0.win 5).blk t).view.read (Elt Ideal)
      (Sage.denseRelu (X V c) (A V c) (Ws V c) (Wn V c) (fun q => B V c (ix2 (0 : Fin 1) (q 0)))) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  funext j
  rw [View.read_apply]
  obtain ⟨-, -, -, -, -, -, -, -, -, -, e0, e1⟩ := idx_facts t
  have hN : cfg0.N = 50 := N_0
  have ht := t.isLt
  have hj0 : (j 0).val < 2000 := (j 0).isLt
  have hj1 : (j 1).val < 128 := (j 1).isLt
  have hemb : ((cfg0.win 5).blk t).view.emb j
      = ix2 (⟨t.val * 2000 + (j 0).val, by omega⟩ : Fin 100000) (⟨(j 1).val, hj1⟩ : Fin 128) := by
    funext a
    apply Fin.ext
    match a with
    | ⟨0, _⟩ => show win0_5.index t 0 * 2000 + 1 * (j 0).val = t.val * 2000 + (j 0).val; omega
    | ⟨1, _⟩ => show win0_5.index t 1 * 128 + 1 * (j 1).val = (j 1).val; omega
  show k0_pay1 (F := Ideal) (iblk0 V c 0 t) (iblk0 V c 1 t) (iblk0 V c 2 t) (iblk0 V c 3 t) (iblk0 V c 4 t) j
      = Sage.denseRelu (X V c) (A V c) (Ws V c) (Wn V c) (fun q => B V c (ix2 (0 : Fin 1) (q 0))) (((cfg0.win 5).blk t).view.emb j)
  rw [hemb]
  refine (pay_apply (iblk0 V c 0 t) (iblk0 V c 1 t) (iblk0 V c 2 t) (iblk0 V c 3 t) (iblk0 V c 4 t) j).trans ?_
  unfold Sage.denseRelu Sage.dense
  refine congrArg (fun z => max z (Ideal.ofBits .f32 0x00000000#32)) ?_
  refine congrArg₂ (· + ·) (congrArg₂ (· + ·) (Finset.sum_congr rfl fun k _ => ?_) (Finset.sum_congr rfl fun k _ => ?_)) ?_
  · exact congrArg₂ (· * ·) (blk_x V c t (j 0) k _ rfl) (blk_ws V c t k (j 1))
  · exact congrArg₂ (· * ·) (blk_a V c t (j 0) k _ rfl) (blk_wn V c t k (j 1))
  · exact blk_b V c t 0 (j 1)

/-- An index of the result array lies in point `t`'s block iff each coordinate lies in the block's range on its axis. -/
theorem mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v22).slice (win0_5.rect t)).set ↔ _
  rw [View.set_slice_whole, Rect.mem_set_unit]
  exact Iff.rfl

/-- The result array after the region is the clamped dense stage of the operand arrays: row `r` lies in block
    `r / 2000`, so the blocks cover the array, and each block is that function's restriction. -/
theorem final (c : Dev nD) :
    (dat0 V c).arrAt 5 cfg0.N = Sage.denseRelu (X V c) (A V c) (Ws V c) (Wn V c) (fun q => B V c (ix2 (0 : Fin 1) (q 0))) :=
  (dat0 V c).arrAt_eq_of_cover 5 _ (fun t _ => flushed V c t) fun i => by
    have hN : cfg0.N = 50 := N_0
    have hi0 : (i 0).val < 100000 := (i 0).isLt
    have hi1 : (i 1).val < 128 := (i 1).isLt
    refine ⟨⟨(i 0).val / 2000, by omega⟩, flush0_5 _, ?_⟩
    rw [mem_blk]
    obtain ⟨-, -, -, -, -, -, -, -, -, -, e0, e1⟩ := idx_facts ⟨(i 0).val / 2000, by omega⟩
    intro a
    match a with
    | ⟨0, _⟩ => show win0_5.index _ 0 * 2000 ≤ (i 0).val ∧ (i 0).val < win0_5.index _ 0 * 2000 + 2000; rw [e0]; show (i 0).val / 2000 * 2000 ≤ _ ∧ _ < (i 0).val / 2000 * 2000 + 2000; omega
    | ⟨1, _⟩ => show win0_5.index _ 1 * 128 ≤ (i 1).val ∧ (i 1).val < win0_5.index _ 1 * 128 + 128; rw [e1]; omega

end Cert.KernelIdeal.Layer0

end
-- ==== Proof.KernelValue.lean ====
/- The idealized kernel's result, read: the three regions' dense stages chained through the host stretches.

   Region 0 is entered with the input features, their means over the incoming edges and the first layer's weights
   and bias, and leaves the first hidden features; the next stretch takes their means (the in-degree column is the
   one computed before region 0, which nothing overwrites), region 1 leaves the second hidden features, the last
   stretch takes their means and region 2 leaves the result. No host stretch and no region writes an argument or the
   in-degree column, so each later boundary still reads them as launched. -/
import proofs.«115598_j74792560492685_1_alg».proof.Proof.Stretch0
import proofs.«115598_j74792560492685_1_alg».proof.Proof.Stretch1
import proofs.«115598_j74792560492685_1_alg».proof.Proof.Stretch2
import proofs.«115598_j74792560492685_1_alg».proof.Proof.Region0
import proofs.«115598_j74792560492685_1_alg».proof.Proof.Region1
import proofs.«115598_j74792560492685_1_alg».proof.Proof.Region2
import proofs.«115598_j74792560492685_1_alg».proof.Proof.KernelIdealRun
import Idealize.ShloMosaic.Lib.ValueLayout

set_option maxRecDepth 16384

noncomputable section

open Idealize.ShloMosaic Idealize.ShloMosaic.TcCoe Idealize.SL.Sem Idealize.ShloMosaic.ValueIdx

namespace Cert.KernelIdeal.Val

open Cert.KernelIdeal Cert.KernelIdeal.Facts₀ Cert.KernelIdeal.GenP

variable (m : (ℓ : Loc nD τ sig) → Buf (Elt Ideal) ℓ) (ρ : Dev nD → PrngReg)

/-- A vector laid out as one row, read back along that row, is the vector. -/
theorem row_of_cast {n : ℕ} (b : (⟨1, ![n]⟩ : Shape).Idx → EReal) (h : (⟨1, ![n]⟩ : Shape).ShapeCasts ⟨2, ![1, n]⟩) :
    (fun q : (⟨1, ![n]⟩ : Shape).Idx => shapeCast ⟨2, ![1, n]⟩ b h (ix2 (0 : Fin 1) (q 0))) = b :=
  funext fun q => (shapeCast_a_1a_apply b h 0 (q 0)).trans (congrArg b (eq_ix1 q).symm)

/-- The features after the first layer. -/
def feat1 (c : Dev nD) : FVec Ideal S100000x128 .f32 :=
  Sage.denseRelu (m ((c : Thread nD τ).loc main_arg0)) (Sage.meanAgg (F := Ideal) (m ((c : Thread nD τ).loc main_arg0)) (m ((c : Thread nD τ).loc main_arg1)) (m ((c : Thread nD τ).loc main_arg2))) (m ((c : Thread nD τ).loc main_arg3)) (m ((c : Thread nD τ).loc main_arg4)) (m ((c : Thread nD τ).loc main_arg5))

/-- The features after the second layer. -/
def feat2 (c : Dev nD) : FVec Ideal S100000x128 .f32 :=
  Sage.denseRelu (feat1 m c) (Sage.meanAgg (F := Ideal) (feat1 m c) (m ((c : Thread nD τ).loc main_arg1)) (m ((c : Thread nD τ).loc main_arg2))) (m ((c : Thread nD τ).loc main_arg6)) (m ((c : Thread nD τ).loc main_arg7)) (m ((c : Thread nD τ).loc main_arg8))

/-! ## After region 0 -/

/-- Region 0 leaves the first hidden features in its result array. -/
theorem W2_v22 (c : Dev nD) : W2 m ρ c (Proc.devRef .tc main_v22) = feat1 m c :=
  calc W2 m ρ c (Proc.devRef .tc main_v22)
    _ = (dat0 (V1 m ρ) c).arrAt 5 cfg0.N := W2_arr m ρ c 5
    _ = Sage.denseRelu (W1 m ρ c (Proc.devRef .tc main_arg0)) (W1 m ρ c (Proc.devRef .tc main_v20)) (W1 m ρ c (Proc.devRef .tc main_arg3))
          (W1 m ρ c (Proc.devRef .tc main_arg4)) (fun q => W1 m ρ c (Proc.devRef .tc main_v21) (ix2 (0 : Fin 1) (q 0))) := Layer0.final (V1 m ρ) c
    _ = feat1 m c := by
      rw [W1_arg0, W1_v20, W1_arg3, W1_arg4, W1_v21, row_of_cast]
      rfl

theorem W2_arg1 (c : Dev nD) : W2 m ρ c (Proc.devRef .tc main_arg1) = (m ((c : Thread nD τ).loc main_arg1)) :=
  (W2_of_ne m ρ c main_arg1 (by decide)).trans (W1_arg1 m ρ c)
theorem W2_arg2 (c : Dev nD) : W2 m ρ c (Proc.devRef .tc main_arg2) = (m ((c : Thread nD τ).loc main_arg2)) :=
  (W2_of_ne m ρ c main_arg2 (by decide)).trans (W1_arg2 m ρ c)
theorem W2_arg6 (c : Dev nD) : W2 m ρ c (Proc.devRef .tc main_arg6) = (m ((c : Thread nD τ).loc main_arg6)) :=
  (W2_of_ne m ρ c main_arg6 (by decide)).trans (W1_arg6 m ρ c)
theorem W2_arg7 (c : Dev nD) : W2 m ρ c (Proc.devRef .tc main_arg7) = (m ((c : Thread nD τ).loc main_arg7)) :=
  (W2_of_ne m ρ c main_arg7 (by decide)).trans (W1_arg7 m ρ c)
theorem W2_arg8 (c : Dev nD) : W2 m ρ c (Proc.devRef .tc main_arg8) = (m ((c : Thread nD τ).loc main_arg8)) :=
  (W2_of_ne m ρ c main_arg8 (by decide)).trans (W1_arg8 m ρ c)
theorem W2_arg9 (c : Dev nD) : W2 m ρ c (Proc.devRef .tc main_arg9) = (m ((c : Thread nD τ).loc main_arg9)) :=
  (W2_of_ne m ρ c main_arg9 (by decide)).trans (W1_arg9 m ρ c)
theorem W2_arg10 (c : Dev nD) : W2 m ρ c (Proc.devRef .tc main_arg10) = (m ((c : Thread nD τ).loc main_arg10)) :=
  (W2_of_ne m ρ c main_arg10 (by decide)).trans (W1_arg10 m ρ c)
theorem W2_arg11 (c : Dev nD) : W2 m ρ c (Proc.devRef .tc main_arg11) = (m ((c : Thread nD τ).loc main_arg11)) :=
  (W2_of_ne m ρ c main_arg11 (by decide)).trans (W1_arg11 m ρ c)
theorem W2_v8 (c : Dev nD) : W2 m ρ c (Proc.devRef .tc main_v8) = Sage.invDeg (F := Ideal) (m ((c : Thread nD τ).loc main_arg2)) :=
  (W2_of_ne m ρ c main_v8 (by decide)).trans (W1_v8 m ρ c)

/-! ## Entering region 1 -/

theorem W3_v34' (c : Dev nD) : W3 m ρ c (Proc.devRef .tc main_v34) = Sage.meanAgg (F := Ideal) (feat1 m c) (m ((c : Thread nD τ).loc main_arg1)) (m ((c : Thread nD τ).loc main_arg2)) := by
  rw [W3_v34, W2_v22, W2_arg1, W2_arg2, W2_v8]
  rfl

/-! ## After region 1 -/

/-- Region 1 leaves the second hidden features in its result array. -/
theorem W4_v36 (c : Dev nD) : W4 m ρ c (Proc.devRef .tc main_v36) = feat2 m c :=
  calc W4 m ρ c (Proc.devRef .tc main_v36)
    _ = (dat1 (V3 m ρ) c).arrAt 5 cfg1.N := W4_arr m ρ c 5
    _ = Sage.denseRelu (W3 m ρ c (Proc.devRef .tc main_v22)) (W3 m ρ c (Proc.devRef .tc main_v34)) (W3 m ρ c (Proc.devRef .tc main_arg6))
          (W3 m ρ c (Proc.devRef .tc main_arg7)) (fun q => W3 m ρ c (Proc.devRef .tc main_v35) (ix2 (0 : Fin 1) (q 0))) := Layer1.final (V3 m ρ) c
    _ = feat2 m c := by
      rw [W3_v34', W3_v22, W2_v22, W3_arg6, W2_arg6, W3_arg7, W2_arg7, W3_v35, W2_arg8, row_of_cast]
      rfl

theorem W4_arg1 (c : Dev nD) : W4 m ρ c (Proc.devRef .tc main_arg1) = (m ((c : Thread nD τ).loc main_arg1)) :=
  (W4_of_ne m ρ c main_arg1 (by decide)).trans ((W3_arg1 m ρ c).trans (W2_arg1 m ρ c))
theorem W4_arg2 (c : Dev nD) : W4 m ρ c (Proc.devRef .tc main_arg2) = (m ((c : Thread nD τ).loc main_arg2)) :=
  (W4_of_ne m ρ c main_arg2 (by decide)).trans ((W3_arg2 m ρ c).trans (W2_arg2 m ρ c))
theorem W4_arg9 (c : Dev nD) : W4 m ρ c (Proc.devRef .tc main_arg9) = (m ((c : Thread nD τ).loc main_arg9)) :=
  (W4_of_ne m ρ c main_arg9 (by decide)).trans ((W3_arg9 m ρ c).trans (W2_arg9 m ρ c))
theorem W4_arg10 (c : Dev nD) : W4 m ρ c (Proc.devRef .tc main_arg10) = (m ((c : Thread nD τ).loc main_arg10)) :=
  (W4_of_ne m ρ c main_arg10 (by decide)).trans ((W3_arg10 m ρ c).trans (W2_arg10 m ρ c))
theorem W4_arg11 (c : Dev nD) : W4 m ρ c (Proc.devRef .tc main_arg11) = (m ((c : Thread nD τ).loc main_arg11)) :=
  (W4_of_ne m ρ c main_arg11 (by decide)).trans ((W3_arg11 m ρ c).trans (W2_arg11 m ρ c))
theorem W4_v8 (c : Dev nD) : W4 m ρ c (Proc.devRef .tc main_v8) = Sage.invDeg (F := Ideal) (m ((c : Thread nD τ).loc main_arg2)) :=
  (W4_of_ne m ρ c main_v8 (by decide)).trans ((W3_v8 m ρ c).trans (W2_v8 m ρ c))

/-! ## Entering region 2, and the result -/

theorem W5_v48' (c : Dev nD) : W5 m ρ c (Proc.devRef .tc main_v48) = Sage.meanAgg (F := Ideal) (feat2 m c) (m ((c : Thread nD τ).loc main_arg1)) (m ((c : Thread nD τ).loc main_arg2)) := by
  rw [W5_v48, W4_v36, W4_arg1, W4_arg2, W4_v8]
  rfl

/-- THE RESULT: after the run the result array holds the network of the arguments. -/
theorem W6_v50 (c : Dev nD) : W6 m ρ c (Proc.devRef .tc main_v50)
    = Sage.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  calc W6 m ρ c (Proc.devRef .tc main_v50)
    _ = (dat2 (V5 m ρ) c).arrAt 5 cfg2.N := W6_arr m ρ c 5
    _ = Sage.dense (W5 m ρ c (Proc.devRef .tc main_v36)) (W5 m ρ c (Proc.devRef .tc main_v48)) (W5 m ρ c (Proc.devRef .tc main_arg9))
          (W5 m ρ c (Proc.devRef .tc main_arg10)) (fun q => W5 m ρ c (Proc.devRef .tc main_v49) (ix2 (0 : Fin 1) (q 0))) := Layer2.final (V5 m ρ) c
    _ = _ := by
      rw [W5_v48', W5_v36, W4_v36, W5_arg9, W4_arg9, W5_arg10, W4_arg10, W5_v49, W4_arg11, row_of_cast]
      rfl

/-- The idealized kernel's run with its result named: every weakly fair execution ends with the result array at the
    network of the arguments and the arguments as launched. -/
theorem run : θ_run defs (onTc (τ := τ) (main (F := Ideal))) ⟨m, fun _ => 0, ρ⟩ (fun r => ∀ c : Dev nD,
      r.2.mem ((c.tc : Thread nD τ).loc main_v50)
        = Sage.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (W6_v50 m ρ c), (h c).2⟩) (run_result m ρ)

end Cert.KernelIdeal.Val

end
-- ==== Proof.RefValue.lean ====
/- The reference's result, read: three layers, each the host products `h · Ws + mean(h) · Wn + b` (the hidden ones
   clamped below at zero), the means taken by the same host operations the kernel program runs between its regions.
   The generated run states the result as one composed term of the arguments; here that term is cut into named stages
   (the cut is definitional), and each stage at the extended reals is the specification's dense stage: a host product
   at an entry is the sum over the contracted axis, and the bias travels through its two broadcasts to the entry's column. -/
import proofs.«115598_j74792560492685_1_alg».proof.Proof.Gen.ReferenceIdeal.Run
import proofs.«115598_j74792560492685_1_alg».proof.Proof.Glue

noncomputable section

open Idealize.ShloMosaic Idealize.ShloMosaic.TcCoe Idealize.SL.Sem Idealize.ShloMosaic.ValueIdx

namespace Cert.ReferenceIdeal.RefVal

open Cert.ReferenceIdeal Cert.ReferenceIdeal.Facts₀ Cert.ReferenceIdeal.Value

section Stages

variable {F : FTy → Type} [FloatOps F]

/-- A hidden layer in the reference's own operations. -/
def hidden (x : (⟨S100000x128, .f32⟩ : BufTy).Contents (Elt F)) (src dst : (⟨S1600000, .i32⟩ : BufTy).Contents (Elt F))
    (ws wn : (⟨S128x128, .f32⟩ : BufTy).Contents (Elt F)) (b : (⟨S128, .f32⟩ : BufTy).Contents (Elt F)) : (⟨S100000x128, .f32⟩ : BufTy).Contents (Elt F) :=
  maximumf (F := F) (addf (F := F) (addf (F := F) (Host.dotGeneral (F := F) dot_S100000x128_S128x128_S100000x128_1_0_0_1_n_n none x ws) (Host.dotGeneral (F := F) dot_S100000x128_S128x128_S100000x128_1_0_0_1_n_n none (Cert.Sage.meanAgg (F := F) x src dst) wn)) (broadcastInDim S100000x128 ![0, 1] bcast_S1x128_S100000x128_0_1 (broadcastInDim S1x128 ![1] bcast_S128_S1x128_1 b))) (broadcastInDim S100000x128 ![] bcast_S_S100000x128 (constant (F := F) S_ .f32 0x00000000#32))

/-- The last layer in the reference's own operations. -/
def output (x : (⟨S100000x128, .f32⟩ : BufTy).Contents (Elt F)) (src dst : (⟨S1600000, .i32⟩ : BufTy).Contents (Elt F))
    (ws wn : (⟨S128x64, .f32⟩ : BufTy).Contents (Elt F)) (b : (⟨S64, .f32⟩ : BufTy).Contents (Elt F)) : (⟨S100000x64, .f32⟩ : BufTy).Contents (Elt F) :=
  addf (F := F) (addf (F := F) (Host.dotGeneral (F := F) dot_S100000x128_S128x64_S100000x64_1_0_0_1_n_n none x ws) (Host.dotGeneral (F := F) dot_S100000x128_S128x64_S100000x64_1_0_0_1_n_n none (Cert.Sage.meanAgg (F := F) x src dst) wn)) (broadcastInDim S100000x64 ![0, 1] bcast_S1x64_S100000x64_0_1 (broadcastInDim S1x64 ![1] bcast_S64_S1x64_1 b))

set_option maxRecDepth 16384 in
/-- The run's composed term is the three stages applied in turn (the two programs' dimension records and side
    conditions of the shared operations are the same data). -/
theorem res_stages (m : (ℓ : Loc nD τ sig) → Buf (Elt F) ℓ) (c : Dev nD) :
    res_main_v64 (F := F) m c
      = output (hidden (hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
          (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8)))
        (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg11)) := by
  unfold res_main_v64
  rfl

end Stages

/-- A hidden layer at the extended reals is the clamped dense stage of the features and their means. -/
theorem hidden_eq (x : (⟨S100000x128, .f32⟩ : BufTy).Contents (Elt Ideal)) (src dst : (⟨S1600000, .i32⟩ : BufTy).Contents (Elt Ideal))
    (ws wn : (⟨S128x128, .f32⟩ : BufTy).Contents (Elt Ideal)) (b : (⟨S128, .f32⟩ : BufTy).Contents (Elt Ideal)) :
    hidden (F := Ideal) x src dst ws wn b = Cert.Sage.denseRelu x (Cert.Sage.meanAgg (F := Ideal) x src dst) ws wn b := by
  funext j
  unfold hidden
  rw [maximumf_apply]
  refine congrArg₂ max (Cert.Sage.ref_apply _ rfl x _ ws wn b _ _ j) ?_
  exact broadcastInDim_apply _ bcast_S_S100000x128 _ j ix0 (fun a => a.elim0)

/-- The last layer at the extended reals is the dense stage of the features and their means. -/
theorem output_eq (x : (⟨S100000x128, .f32⟩ : BufTy).Contents (Elt Ideal)) (src dst : (⟨S1600000, .i32⟩ : BufTy).Contents (Elt Ideal))
    (ws wn : (⟨S128x64, .f32⟩ : BufTy).Contents (Elt Ideal)) (b : (⟨S64, .f32⟩ : BufTy).Contents (Elt Ideal)) :
    output (F := Ideal) x src dst ws wn b = Cert.Sage.dense x (Cert.Sage.meanAgg (F := Ideal) x src dst) ws wn b := by
  funext j
  unfold output
  exact Cert.Sage.ref_apply _ rfl x _ ws wn b _ _ j

/-- The reference's result is the network of the arguments. -/
theorem result_eq (m : (ℓ : Loc nD τ sig) → Buf (Elt Ideal) ℓ) (c : Dev nD) :
    res_main_v64 (F := Ideal) m c
      = Cert.Sage.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [res_stages, output_eq, hidden_eq, hidden_eq]
  rfl

end Cert.ReferenceIdeal.RefVal

end
-- ==== Proof.lean ====
/- The proof of `Cert.Claim`: a three-layer GraphSAGE forward pass, the kernel program against its jnp reference.

   Both programs compute, for node features `x` and edges `src → dst`, three times over:
   `h ↦ h · Ws + mean(h) · Wn + b` (the first two results clamped below at zero), where `mean(h)` gathers the rows of
   `h` at the edges' sources, adds them up at the destinations and divides row `r` by `max(deg r, 1)`. The kernel
   program does the gather and the scatter-add by host operations and each dense stage `h · Ws + mean(h) · Wn + b` in a
   pallas_call over 50 blocks of 2000 rows (the operands narrowed to bf16, which at the extended reals is the identity);
   the reference does everything by host operations. At the extended reals a matrix-unit product into a zero
   accumulator and a host product are the same sum over the contracted axis, the sums are associated the same way on
   both sides, and the two programs' host operations around the dense stages are the same operations on the same
   operands, so both results are one function `Sage.net` of the arguments. No algebraic law of the extended reals is
   used, so the precondition (finite inputs) is not needed.

   The three frames: the kernel programs' from the frame certificate of their three regions among host stretches, the
   reference's from its run. `preserves` has no entry: the idealization rewrote no operation. -/
import proofs.«115598_j74792560492685_1_alg».proof.Defs
import proofs.«115598_j74792560492685_1_alg».proof.Proof.Gen.Kernel
import proofs.«115598_j74792560492685_1_alg».proof.Proof.Gen.KernelIdeal
import proofs.«115598_j74792560492685_1_alg».proof.Proof.Gen.ReferenceIdeal
import proofs.«115598_j74792560492685_1_alg».proof.Proof.Gen.Pre_finite_inputs
import proofs.«115598_j74792560492685_1_alg».proof.Proof.KernelFrame
import proofs.«115598_j74792560492685_1_alg».proof.Proof.KernelIdealFrame
import proofs.«115598_j74792560492685_1_alg».proof.Proof.KernelValue
import proofs.«115598_j74792560492685_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.GenP.frame m ρ

/-- The idealized kernel program runs and keeps its arguments. -/
theorem frame_ki : Cert.frame_KernelIdeal := fun m ρ _ => Cert.KernelIdeal.GenP.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the network of the arguments in their result. -/
theorem algebraic : Cert.algebraic_KernelIdeal_ReferenceIdeal := by
  intro m ρ m' ρ' _ hagree
  refine ⟨fun c => Cert.Sage.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefVal.result_eq]
  obtain ⟨e0, e1, e2, e3, e4, e5, e6, e7, e8, e9, e10, e11⟩ := hagree c
  rw [e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
